-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S128x64 : Shape := ⟨2, ![128, 64]⟩
abbrev S1600000 : Shape := ⟨1, ![1600000]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S1600000 : S_.BroadcastsInDim S1600000 (![] : Fin 0 → Fin S1600000.rank)
  reducesTo_S1600000_S_d0 : S1600000.ReducesTo [0] S_

variable [Facts]

def fn_part1 {F : FTy → Type} [FloatOps F] (main_arg3 : IVec S1600000 32) (main_v13 : IVec S_ 1) (main_v15 : IVec S1600000 1) (main_c_5 : IVec S_ 32) : IVec S_ 1 :=
  let main_v16 : IVec S1600000 32 := broadcastInDim S1600000 ![] bcast_S_S1600000 main_c_5
  let main_v17 : IVec S1600000 1 := cmpi .slt main_arg3 main_v16
  let main_v18 : IVec S1600000 1 := andi main_v15 main_v17
  let main_c_6 : IVec S_ 1 := constantI S_ 1 1#1
  let main_v19 : IVec S_ 1 := (fun x v => Host.reduce IntOp.andi x v reducesTo_S1600000_S_d0 h_S_) main_v18 main_c_6
  let main_v20 : IVec S_ 1 := andi main_v13 main_v19
  main_v20

def fn {F : FTy → Type} [FloatOps F] (main_arg0 : FVec F S100000x128 .f32) (main_arg1 : FVec F S128x64 .f32) (main_arg2 : FVec F S1600000 .f32) (main_arg3 : IVec S1600000 32) (main_arg4 : IVec S1600000 32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x64 .f32 := Host.absf main_arg1
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S1600000 .f32 := Host.absf main_arg2
  let main_cst_2 : FVec F S_ .f32 := constant S_ .f32 0x7F800000#32
  let main_v10 : FVec F S1600000 .f32 := broadcastInDim S1600000 ![] bcast_S_S1600000 main_cst_2
  let main_v11 : IVec S1600000 1 := cmpf .olt main_v9 main_v10
  let main_c_3 : IVec S_ 1 := constantI S_ 1 1#1
  let main_v12 : IVec S_ 1 := (fun x v => Host.reduce IntOp.andi x v reducesTo_S1600000_S_d0 h_S_) main_v11 main_c_3
  let main_v13 : IVec S_ 1 := andi main_v8 main_v12
  let main_c_4 : IVec S_ 32 := constantI S_ 32 4294867296#32
  let main_v14 : IVec S1600000 32 := broadcastInDim S1600000 ![] bcast_S_S1600000 main_c_4
  let main_v15 : IVec S1600000 1 := cmpi .sge main_arg3 main_v14
  let main_c_5 : IVec S_ 32 := constantI S_ 32 100000#32
  fn_part1 (F := F) main_arg3 main_v13 main_v15 main_c_5
-- ==== Kernel.lean ====
abbrev S100000x128 : Shape := ⟨2, ![100000, 128]⟩
abbrev S128x64 : Shape := ⟨2, ![128, 64]⟩
abbrev S1600000 : Shape := ⟨1, ![1600000]⟩
abbrev S100000x64 : Shape := ⟨2, ![100000, 64]⟩
abbrev S10000x128 : Shape := ⟨2, ![10000, 128]⟩
abbrev S10000x64 : Shape := ⟨2, ![10000, 64]⟩
abbrev S_ : Shape := ⟨0, ![]⟩
abbrev S1600000x1 : Shape := ⟨2, ![1600000, 1]⟩
abbrev S1 : Shape := ⟨1, ![1]⟩
abbrev S1x1 : Shape := ⟨2, ![1, 1]⟩
abbrev S1600000x64 : Shape := ⟨2, ![1600000, 64]⟩

abbrev nBuf : Space → Nat
  | .hbm => 37
  | .vmem => 9
  | .smem => 0
  | _ => 0

abbrev bufTy : (tb : Table) → Fin (tcTables nBuf tb) → BufTy
  | .hbm, ⟨0, _⟩ => ⟨S100000x128, .f32⟩
  | .hbm, ⟨1, _⟩ => ⟨S128x64, .f32⟩
  | .hbm, ⟨2, _⟩ => ⟨S1600000, .f32⟩
  | .hbm, ⟨3, _⟩ => ⟨S1600000, .i32⟩
  | .hbm, ⟨4, _⟩ => ⟨S1600000, .i32⟩
  | .hbm, ⟨5, _⟩ => ⟨S100000x64, .f32⟩
  | .hbm, ⟨6, _⟩ => ⟨S_, .i32⟩
  | .hbm, ⟨7, _⟩ => ⟨S1600000, .i32⟩
  | .hbm, ⟨8, _⟩ => ⟨S1600000, .i1⟩
  | .hbm, ⟨9, _⟩ => ⟨S_, .i32⟩
  | .hbm, ⟨10, _⟩ => ⟨S1600000, .i32⟩
  | .hbm, ⟨11, _⟩ => ⟨S1600000, .i32⟩
  | .hbm, ⟨12, _⟩ => ⟨S1600000, .i32⟩
  | .hbm, ⟨13, _⟩ => ⟨S1600000x1, .i32⟩
  | .hbm, ⟨14, _⟩ => ⟨S1, .i32⟩
  | .hbm, ⟨15, _⟩ => ⟨S_, .i32⟩
  | .hbm, ⟨16, _⟩ => ⟨S1600000x1, .i32⟩
  | .hbm, ⟨17, _⟩ => ⟨S1600000x1, .i1⟩
  | .hbm, ⟨18, _⟩ => ⟨S1x1, .i32⟩
  | .hbm, ⟨19, _⟩ => ⟨S1600000x1, .i32⟩
  | .hbm, ⟨20, _⟩ => ⟨S1600000x1, .i1⟩
  | .hbm, ⟨21, _⟩ => ⟨S1600000x1, .i1⟩
  | .hbm, ⟨22, _⟩ => ⟨S_, .i1⟩
  | .hbm, ⟨23, _⟩ => ⟨S1600000, .i1⟩
  | .hbm, ⟨24, _⟩ => ⟨S1600000x64, .f32⟩
  | .hbm, ⟨25, _⟩ => ⟨S1600000x64, .i1⟩
  | .hbm, ⟨26, _⟩ => ⟨S_, .f32⟩
  | .hbm, ⟨27, _⟩ => ⟨S1600000x64, .f32⟩
  | .hbm, ⟨28, _⟩ => ⟨S1600000x64, .f32⟩
  | .hbm, ⟨29, _⟩ => ⟨S1600000x1, .f32⟩
  | .hbm, ⟨30, _⟩ => ⟨S1600000x64, .f32⟩
  | .hbm, ⟨31, _⟩ => ⟨S1600000x64, .f32⟩
  | .hbm, ⟨32, _⟩ => ⟨S_, .f32⟩
  | .hbm, ⟨33, _⟩ => ⟨S100000x64, .f32⟩
  | .hbm, ⟨34, _⟩ => ⟨S1600000x1, .i32⟩
  | .hbm, ⟨35, _⟩ => ⟨S100000x64, .f32⟩
  | .hbm, ⟨36, _⟩ => ⟨S100000x64, .f32⟩
  | .local _ .vmem, ⟨0, _⟩ => ⟨S10000x128, .f32⟩
  | .local _ .vmem, ⟨1, _⟩ => ⟨S10000x128, .f32⟩
  | .local _ .vmem, ⟨2, _⟩ => ⟨S128x64, .f32⟩
  | .local _ .vmem, ⟨3, _⟩ => ⟨S10000x64, .f32⟩
  | .local _ .vmem, ⟨4, _⟩ => ⟨S10000x64, .f32⟩
  | .local _ .vmem, ⟨5, _⟩ => ⟨S10000x64, .f32⟩
  | .local _ .vmem, ⟨6, _⟩ => ⟨S10000x64, .f32⟩
  | .local _ .vmem, ⟨7, _⟩ => ⟨S10000x64, .f32⟩
  | .local _ .vmem, ⟨8, _⟩ => ⟨S10000x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_call0_c : Ref sig .tc := ⟨.hbm, 6, rfl⟩
abbrev main_call0_v0 : Ref sig .tc := ⟨.hbm, 7, rfl⟩
abbrev main_call0_v1 : Ref sig .tc := ⟨.hbm, 8, rfl⟩
abbrev main_call0_c_0 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_v5 : Ref sig .tc := ⟨.hbm, 13, rfl⟩
abbrev main_call0_c_1 : Ref sig .tc := ⟨.hbm, 14, rfl⟩
abbrev main_call0_c_2 : Ref sig .tc := ⟨.hbm, 15, rfl⟩
abbrev main_call0_v6 : Ref sig .tc := ⟨.hbm, 16, rfl⟩
abbrev main_call0_v7 : Ref sig .tc := ⟨.hbm, 17, rfl⟩
abbrev main_call0_v8 : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_c_3 : Ref sig .tc := ⟨.hbm, 22, rfl⟩
abbrev main_call0_v12 : Ref sig .tc := ⟨.hbm, 23, rfl⟩
abbrev main_call0_v13 : Ref sig .tc := ⟨.hbm, 24, rfl⟩
abbrev main_call0_v14 : Ref sig .tc := ⟨.hbm, 25, rfl⟩
abbrev main_call0_cst : Ref sig .tc := ⟨.hbm, 26, rfl⟩
abbrev main_call0_v15 : Ref sig .tc := ⟨.hbm, 27, rfl⟩
abbrev main_v1 : Ref sig .tc := ⟨.hbm, 28, rfl⟩
abbrev main_v2 : Ref sig .tc := ⟨.hbm, 29, rfl⟩
abbrev main_v3 : Ref sig .tc := ⟨.hbm, 30, rfl⟩
abbrev main_v4 : Ref sig .tc := ⟨.hbm, 31, rfl⟩
abbrev main_cst : Ref sig .tc := ⟨.hbm, 32, rfl⟩
abbrev main_v5 : Ref sig .tc := ⟨.hbm, 33, rfl⟩
abbrev main_v6 : Ref sig .tc := ⟨.hbm, 34, rfl⟩
abbrev main_v7 : Ref sig .tc := ⟨.hbm, 35, rfl⟩
abbrev main_v8 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

class Facts₀ : Prop where
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S10000x64_S10000x64_0_0 : ∀ a, (![0, 0] : Fin 2 → Nat) a + S10000x64.size a ≤ S10000x64.size a
  h_S10000x64 : 0 < S10000x64.numel
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S1600000x1 : S_.BroadcastsInDim S1600000x1 (![] : Fin 0 → Fin S1600000x1.rank)
  bcast_S1_S1x1_1 : S1.BroadcastsInDim S1x1 (![1] : Fin 1 → Fin S1x1.rank)
  bcast_S1x1_S1600000x1_0_1 : S1x1.BroadcastsInDim S1600000x1 (![0, 1] : Fin 2 → Fin S1600000x1.rank)
  reducesTo_S1600000x1_S1600000_d1 : S1600000x1.ReducesTo [1] S1600000
  h_S_ : 0 < S_.numel
  bcast_S1600000_S1600000x64_0 : S1600000.BroadcastsInDim S1600000x64 (![0] : Fin 1 → Fin S1600000x64.rank)
  bcast_S_S1600000x64 : S_.BroadcastsInDim S1600000x64 (![] : Fin 0 → Fin S1600000x64.rank)
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  shapeCasts_S10000x64_S10000x64 : S10000x64.ShapeCasts S10000x64
  dot_S10000x128_S128x64_S10000x64_1_0_0_1_n_n_wf : DotDims.WF S10000x128 S128x64 S10000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x64.size a ≤ S100000x64.size a
  hwx0_2 : ∀ i : grid0.Coords, EltTy.bits .f32 = 32 ∨ (Rect.block (s := S100000x64) S10000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x64.size a ≤ S100000x64.size a
  hwx1_1 : ∀ i : grid1.Coords, EltTy.bits .f32 = 32 ∨ (Rect.block (s := S100000x64) S10000x64.size (cc1_transform_1 i) (hinb1_1 i)).WholeWords (EltTy.packing .f32)

variable [Facts₀]

def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S10000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v7) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v8) S10000x64.size cc1_transform_1 reads1_1 true false 2 stage1_1 sem1_1
    hrank1 hreads1_1 hinb1_1 nbuf1_1 (Memref.isWhole_whole _) hwx1_1 hstage1_1

abbrev win1 : Fin 2 → Pipeline.Window sig grid1 := fun | 0 => win1_0 | 1 => win1_1 | ⟨_ + 2, h⟩ => absurd h (Nat.not_lt.2 (Nat.le_add_left _ _))
abbrev spec1 : Fin 2 → Pipeline.WinSpec sig grid1.rank := fun w => (win1 w).toWinSpec

class Facts : Prop extends Facts₀ where

variable [Facts]
-- ==== ReferenceIdeal.lean ====
abbrev S100000x128 : Shape := ⟨2, ![100000, 128]⟩
abbrev S128x64 : Shape := ⟨2, ![128, 64]⟩
abbrev S1600000 : Shape := ⟨1, ![1600000]⟩
abbrev S100000x64 : Shape := ⟨2, ![100000, 64]⟩
abbrev S_ : Shape := ⟨0, ![]⟩
abbrev S1600000x1 : Shape := ⟨2, ![1600000, 1]⟩
abbrev S1600000x64 : Shape := ⟨2, ![1600000, 64]⟩

abbrev nBuf : Space → Nat
  | .hbm => 25
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S128x64, .f32⟩
  | .hbm, ⟨2, _⟩ => ⟨S1600000, .f32⟩
  | .hbm, ⟨3, _⟩ => ⟨S1600000, .i32⟩
  | .hbm, ⟨4, _⟩ => ⟨S1600000, .i32⟩
  | .hbm, ⟨5, _⟩ => ⟨S100000x64, .f32⟩
  | .hbm, ⟨6, _⟩ => ⟨S_, .i32⟩
  | .hbm, ⟨7, _⟩ => ⟨S1600000, .i32⟩
  | .hbm, ⟨8, _⟩ => ⟨S1600000, .i1⟩
  | .hbm, ⟨9, _⟩ => ⟨S_, .i32⟩
  | .hbm, ⟨10, _⟩ => ⟨S1600000, .i32⟩
  | .hbm, ⟨11, _⟩ => ⟨S1600000, .i32⟩
  | .hbm, ⟨12, _⟩ => ⟨S1600000, .i32⟩
  | .hbm, ⟨13, _⟩ => ⟨S1600000x1, .i32⟩
  | .hbm, ⟨14, _⟩ => ⟨S1600000x64, .f32⟩
  | .hbm, ⟨15, _⟩ => ⟨S1600000x1, .f32⟩
  | .hbm, ⟨16, _⟩ => ⟨S1600000x64, .f32⟩
  | .hbm, ⟨17, _⟩ => ⟨S1600000x64, .f32⟩
  | .hbm, ⟨18, _⟩ => ⟨S_, .f32⟩
  | .hbm, ⟨19, _⟩ => ⟨S100000x64, .f32⟩
  | .hbm, ⟨20, _⟩ => ⟨S1600000x1, .i32⟩
  | .hbm, ⟨21, _⟩ => ⟨S100000x64, .f32⟩
  | .hbm, ⟨22, _⟩ => ⟨S_, .f32⟩
  | .hbm, ⟨23, _⟩ => ⟨S100000x64, .f32⟩
  | .hbm, ⟨24, _⟩ => ⟨S100000x64, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_c_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_call0_cst : Ref sig .tc := ⟨.hbm, 22, rfl⟩
abbrev main_call0_v0 : Ref sig .tc := ⟨.hbm, 23, rfl⟩
abbrev main_v14 : Ref sig .tc := ⟨.hbm, 24, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  dot_S100000x128_S128x64_S100000x64_1_0_0_1_n_n_wf : DotDims.WF S100000x128 S128x64 S100000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1

variable [Facts₀]

def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf

class Facts : Prop extends Facts₀ where

variable [Facts]
-- ==== Proof.SourceRange.lean ====
/- What the precondition says of the source-node indices. The predicate's last conjunct is
   `jnp.all((edge_src ≥ −100000) & (edge_src < 100000))`: a reduction by `and`, over all 1600000 edges, of the
   conjunction of two signed comparisons. Where the predicate is 1, every edge's source word, read as a signed
   integer, lies in [−100000, 100000): the range in which indexing a 100000-row table numpy-style is defined. -/
import proofs.«422082_j52596169506858_2_alg».proof.Pre_finite_inputs
import Idealize.ShloMosaic.Lib.ReduceAll
import Idealize.ShloMosaic.Lib.Affine
import Idealize.ShloMosaic.Lib.ValueIdx

namespace Cert.GraphConv

open Idealize.ShloMosaic Cert.Pre_finite_inputs

variable [Cert.Pre_finite_inputs.Facts]
variable {F : FTy → Type} [FloatOps F]

/-- The scalar shape has one index. -/
instance : Subsingleton Cert.Pre_finite_inputs.S_.Idx := ⟨fun a b => funext fun d => d.elim0⟩

/-- Every source word is at least −100000 and below 100000: the predicate's value is the `and` of its four
    conjuncts, the last of them an `and`-reduction that is 1 only if its operand is 1 at every edge, and there the
    operand is the `and` of `−100000 ≤ src e` and `src e < 100000` on signed words. -/
theorem src_in_range (x : FVec F S100000x128 .f32) (w : FVec F S128x64 .f32) (val : FVec F S1600000 .f32)
    (src dst : IVec S1600000 32)
    (h : Cert.Pre_finite_inputs.fn (F := F) x w val src dst = fun _ => 1#1) (e : S1600000.Idx) :
    (-100000 : Int) ≤ (src e).toInt ∧ (src e).toInt < 100000 := by
  have h0 := congrFun h ValueIdx.ix0
  dsimp only [Cert.Pre_finite_inputs.fn, Cert.Pre_finite_inputs.fn_part1] at h0
  obtain ⟨-, h19⟩ := IntOp.andi_eq_one.1 h0
  have he := Host.reduce_andi_all _ _ _ _ _ h19 e
  obtain ⟨hge, hlt⟩ := IntOp.andi_eq_one.1 he
  have h1 : (4294867296#32 : BitVec 32).toInt ≤ (src e).toInt := IntOp.cmpi_sge.1 hge
  have h2 : (src e).toInt < (100000#32 : BitVec 32).toInt := IntOp.cmpi_slt.1 hlt
  have e1 : (4294867296#32 : BitVec 32).toInt = -100000 := by decide
  have e2 : (100000#32 : BitVec 32).toInt = 100000 := by decide
  rw [e1] at h1
  rw [e2] at h2
  exact ⟨h1, h2⟩

end Cert.GraphConv
-- ==== Proof.ProductBlocks.lean ====
/- The first region: the product matrix x·w from ten row blocks.
   The grid has ten points; point t reads rows 10000·t … 10000·t + 9999 of x (all 128 columns) and the whole of w, and
   writes the same rows of the result. Its body narrows both blocks to bf16 — the identity on extended reals —
   and multiplies them on the matrix unit into a zero accumulator, so entry (r, q) of its block is
   Σ_k x[10000·t + r, k] · w[k, q]. The ten blocks tile the 100000 rows (row i lies in block i / 10000), so the
   array after the region is the product matrix, entry (i, q) = Σ_k x[i, k] · w[k, q]. -/
import proofs.«422082_j52596169506858_2_alg».proof.Proof.Gen.KernelIdeal.Frame
import Idealize.ShloMosaic.Lib.Pipeline.Value
import Idealize.ShloMosaic.Lib.ValueIdx
import Idealize.ShloMosaic.PureOps.Ideal.Laws

set_option maxRecDepth 16384

noncomputable section

namespace Cert.KernelIdeal.Product

open Cert.KernelIdeal Cert.KernelIdeal.Gen
open Idealize.ShloMosaic Idealize.ShloMosaic.TcCoe Idealize.SL.Sem
open Idealize.ShloMosaic.Pipeline (Dat)
open Idealize.ShloMosaic.ValueIdx

-- the buffer contents the region is entered with
variable (V : (c : Dev nD) → (b : Ref sig .tc) → Buf (Elt Ideal) ((c : Thread nD τ).loc b))

theorem origin : (![0, 0] : Fin 2 → Nat) = fun _ => 0 := funext fun a => by fin_cases a <;> rfl

/-- Entry (i₀, k) of x and entry (k, i₁) of w: the two factors of the k-th term of the product's entry i. -/
abbrev xrow (i : S100000x64.Idx) (k : Fin 128) : S100000x128.Idx := fun a => match a with
  | ⟨0, _⟩ => ⟨(i 0).val, (i 0).isLt⟩
  | ⟨1, _⟩ => ⟨k.val, k.isLt⟩
abbrev wcol (i : S100000x64.Idx) (k : Fin 128) : S128x64.Idx := fun a => match a with
  | ⟨0, _⟩ => ⟨k.val, k.isLt⟩
  | ⟨1, _⟩ => ⟨(i 1).val, (i 1).isLt⟩

/-- The product matrix: entry i is the sum over the 128 contracted positions. -/
def prod (x : S100000x128.Idx → EReal) (w : S128x64.Idx → EReal) : S100000x64.Idx → EReal :=
  fun i => ∑ k : Fin 128, x (xrow i k) * w (wcol i k)

/-- The same two factors inside one row block. -/
abbrev brow (j : S10000x64.Idx) (k : Fin 128) : S10000x128.Idx := fun a => match a with
  | ⟨0, _⟩ => ⟨(j 0).val, (j 0).isLt⟩
  | ⟨1, _⟩ => ⟨k.val, k.isLt⟩
abbrev bcol (j : S10000x64.Idx) (k : Fin 128) : S128x64.Idx := fun a => match a with
  | ⟨0, _⟩ => ⟨k.val, k.isLt⟩
  | ⟨1, _⟩ => ⟨(j 1).val, (j 1).isLt⟩

/-! ## The block product's operand indices: the left operand's row is the result's row and its column the
    contracted position; the right operand's row is the contracted position and its column the result's column -/

theorem lhs_blk_0 (j : S10000x64.Idx) (q : dot_S10000x128_S128x64_S10000x64_1_0_0_1_n_n.contr.Idx) :
    (dot_S10000x128_S128x64_S10000x64_1_0_0_1_n_n.lhsIdx j q 0).val = (j 0).val := by
  unfold DotDims.lhsIdx
  rw [dif_neg (show ¬(0 : Fin S10000x128.rank) ∈ dot_S10000x128_S128x64_S10000x64_1_0_0_1_n_n.lhsBatch by decide), dif_pos (show (0 : Fin S10000x128.rank) ∈ dot_S10000x128_S128x64_S10000x64_1_0_0_1_n_n.lhsNonContracting by decide)]
  rfl
theorem lhs_blk_1 (j : S10000x64.Idx) (q : dot_S10000x128_S128x64_S10000x64_1_0_0_1_n_n.contr.Idx) :
    (dot_S10000x128_S128x64_S10000x64_1_0_0_1_n_n.lhsIdx j q 1).val = (q ⟨0, by decide⟩).val :=
  dot_S10000x128_S128x64_S10000x64_1_0_0_1_n_n.lhsIdx_val_of_single rfl j q
theorem rhs_blk_0 (j : S10000x64.Idx) (q : dot_S10000x128_S128x64_S10000x64_1_0_0_1_n_n.contr.Idx) :
    (dot_S10000x128_S128x64_S10000x64_1_0_0_1_n_n.rhsIdx j q 0).val = (q ⟨0, by decide⟩).val :=
  dot_S10000x128_S128x64_S10000x64_1_0_0_1_n_n.rhsIdx_val_of_single rfl j q
theorem rhs_blk_1 (j : S10000x64.Idx) (q : dot_S10000x128_S128x64_S10000x64_1_0_0_1_n_n.contr.Idx) :
    (dot_S10000x128_S128x64_S10000x64_1_0_0_1_n_n.rhsIdx j q 1).val = (j 1).val := by
  unfold DotDims.rhsIdx
  rw [dif_neg (show ¬(1 : Fin S128x64.rank) ∈ dot_S10000x128_S128x64_S10000x64_1_0_0_1_n_n.rhsBatch by decide), dif_pos (show (1 : Fin S128x64.rank) ∈ dot_S10000x128_S128x64_S10000x64_1_0_0_1_n_n.rhsNonContracting by decide)]
  rfl

/-- What the body stores, at entry j of its block: narrowing is the identity and the accumulator is zero, so it is
    the sum over the contracted positions of the products of the two blocks' entries. -/
theorem stored_apply (x0 : Vec Ideal S10000x128 .f32) (x1 : Vec Ideal S128x64 .f32) (j : S10000x64.Idx) :
    k0_pay1 (F := Ideal) x0 x1 j = ∑ k : Fin 128, x0 (brow j k) * x1 (bcol j k) := by
  unfold k0_pay1
  simp only [matmul]
  rw [Ideal.matmul_constant_zero_apply, ← Equiv.sum_comp (ValueIdx.contrEquiv1 dot_S10000x128_S128x64_S10000x64_1_0_0_1_n_n 128 rfl rfl).symm]
  refine Finset.sum_congr rfl fun k _ => ?_
  have hk := ValueIdx.contrEquiv1_symm_val dot_S10000x128_S128x64_S10000x64_1_0_0_1_n_n 128 rfl rfl k
  have el : dot_S10000x128_S128x64_S10000x64_1_0_0_1_n_n.lhsIdx j ((ValueIdx.contrEquiv1 dot_S10000x128_S128x64_S10000x64_1_0_0_1_n_n 128 rfl rfl).symm k) = brow j k := funext fun a => Fin.ext (by
    match a with
    | ⟨0, _⟩ => exact lhs_blk_0 _ _
    | ⟨1, _⟩ => exact (lhs_blk_1 _ _).trans hk)
  have er : dot_S10000x128_S128x64_S10000x64_1_0_0_1_n_n.rhsIdx j ((ValueIdx.contrEquiv1 dot_S10000x128_S128x64_S10000x64_1_0_0_1_n_n 128 rfl rfl).symm k) = bcol j k := funext fun a => Fin.ext (by
    match a with
    | ⟨0, _⟩ => exact (rhs_blk_0 _ _).trans hk
    | ⟨1, _⟩ => exact rhs_blk_1 _ _)
  rw [el, er]
  rfl

/-- The two input blocks at a point and the two input arrays, at their literal types. -/
abbrev xblk (c : Dev nD) (t : Fin cfg0.N) : Vec Ideal S10000x128 .f32 := iblk0 V c 0 t
abbrev wblk (c : Dev nD) (t : Fin cfg0.N) : Vec Ideal S128x64 .f32 := iblk0 V c 1 t
abbrev xarr (c : Dev nD) : S100000x128.Idx → EReal := V c main_arg0
abbrev warr (c : Dev nD) : S128x64.Idx → EReal := V c main_arg1

/-- The index maps over the grid: x's block moves with the result's along the rows and sits at column block 0; w's
    block is the whole of w at every point; the result's row block at point t is t. -/
theorem block_indices : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (1 : Fin 2) = 0
    ∧ win0_2.index t (0 : Fin 2) = t.val :=
  (by decide +kernel : ∀ t : Fin grid0.N, _)

/-- What point t writes back is block t of the product matrix of the two arrays: entry j of the stored block reads
    x at row 10000·t + j₀ and w whole, which is the product's entry at the block's position of j. -/
theorem written_block (c : Dev nD) (t : Fin cfg0.N) :
    (dat0 V c).flushed 2 t = ((cfg0.win 2).blk t).view.read (Elt Ideal) (prod (xarr V c) (warr V c)) := by
  show (cfg0.win 2).cut (grid0.coords t) ((dat0 V c).after 2 t) = _
  rw [after0_2]
  unfold out0_2
  rw [View.canon_unit_zero origin]
  simp only [View.ld_unit_zero (S := S10000x128) origin, View.ld_unit_zero (S := S128x64) origin]
  obtain ⟨e0, e1, e2, e3, e4, e5⟩ := block_indices t
  funext j
  show k0_pay1 (F := Ideal) (xblk V c t) (wblk V c t) j = prod (xarr V c) (warr V c) (((cfg0.win 2).blk t).view.emb j)
  refine (stored_apply (xblk V c t) (wblk V c t) j).trans ?_
  refine Finset.sum_congr rfl fun k _ => ?_
  have hx : xblk V c t (brow j k) = xarr V c (xrow (((cfg0.win 2).blk t).view.emb j) k) := by
    show V c main_arg0 (((cfg0.win 0).blk t).view.emb (brow j k)) = V c main_arg0 _
    congr 1
    funext a
    apply Fin.ext
    match a with
    | ⟨0, _⟩ => show win0_0.index t (0 : Fin 2) * 10000 + 1 * (j 0).val = win0_2.index t (0 : Fin 2) * 10000 + 1 * (j 0).val; omega
    | ⟨1, _⟩ => show win0_0.index t (1 : Fin 2) * 128 + 1 * k.val = k.val; omega
  have hw : wblk V c t (bcol j k) = warr V c (wcol (((cfg0.win 2).blk t).view.emb j) k) := by
    show V c main_arg1 (((cfg0.win 1).blk t).view.emb (bcol j k)) = V c main_arg1 _
    congr 1
    funext a
    apply Fin.ext
    match a with
    | ⟨0, _⟩ => show win0_1.index t (0 : Fin 2) * 128 + 1 * k.val = k.val; omega
    | ⟨1, _⟩ => show win0_1.index t (1 : Fin 2) * 64 + 1 * (j 1).val = win0_2.index t (1 : Fin 2) * 64 + 1 * (j 1).val; omega
  rw [hx, hw]

/-- An index of the result array lies in point t's block iff each coordinate is in the block's range on its axis. -/
theorem mem_block (t : Fin cfg0.N) (i : S100000x64.Idx) :
    i ∈ ((cfg0.win 2).blk t).view.set ↔ ∀ a : Fin 2, win0_2.index t a * S10000x64.size a ≤ (i a).val ∧ (i a).val < win0_2.index t a * S10000x64.size a + S10000x64.size a := by
  show i ∈ ((View.whole main_v0).slice (win0_2.rect t)).set ↔ _
  rw [View.set_slice_whole, Rect.mem_set_unit]
  exact Iff.rfl

/-- Each of the ten row blocks is some point's. -/
theorem point_of_block : ∀ q : Fin 10, ∃ t : Fin cfg0.N, t.val = q.val :=
  (by decide +kernel : ∀ q : Fin 10, ∃ t : Fin grid0.N, t.val = q.val)

/-- Every entry of the result is written: row i₀ lies in the block of point i₀ / 10000. -/
theorem rows_covered (i : S100000x64.Idx) : ∃ t : Fin cfg0.N, (cfg0.win 2).flush t = true ∧ i ∈ ((cfg0.win 2).blk t).view.set := by
  have hi0 : (i 0).val < 100000 := (i 0).isLt
  have hi1 : (i 1).val < 64 := (i 1).isLt
  obtain ⟨t, ht⟩ := point_of_block ⟨(i 0).val / 10000, by omega⟩
  have ht' : t.val = (i 0).val / 10000 := ht
  obtain ⟨e0, e1, e2, e3, e4, e5⟩ := block_indices t
  refine ⟨t, flush0_2 t, ?_⟩
  rw [mem_block]
  intro a
  match a with
  | ⟨0, _⟩ => show win0_2.index t (0 : Fin 2) * 10000 ≤ (i 0).val ∧ (i 0).val < win0_2.index t (0 : Fin 2) * 10000 + 10000; omega
  | ⟨1, _⟩ => show win0_2.index t (1 : Fin 2) * 64 ≤ (i 1).val ∧ (i 1).val < win0_2.index t (1 : Fin 2) * 64 + 64; omega

/-- The result array after the region is the product matrix of the two argument arrays as the region finds them. -/
theorem product_array (c : Dev nD) : (dat0 V c).arrAt 2 cfg0.N = prod (xarr V c) (warr V c) :=
  (dat0 V c).arrAt_eq_of_cover 2 (prod (xarr V c) (warr V c)) (fun t _ => written_block V c t) rows_covered

end Cert.KernelIdeal.Product

end
-- ==== Proof.RectifyBlocks.lean ====
/- The second region: the entrywise maximum with zero, from ten row blocks.
   Point t of its ten-point grid reads rows 10000·t … 10000·t + 9999 of the accumulated array (all 64 columns), and
   writes the same rows of the result with each entry replaced by its maximum with the zero pattern. The blocks tile
   the rows, so the array after the region is the entrywise maximum with zero of the array the region finds. -/
import proofs.«422082_j52596169506858_2_alg».proof.Proof.Gen.KernelIdeal.Frame
import Idealize.ShloMosaic.Lib.Pipeline.Value
import Idealize.ShloMosaic.Lib.ValueIdx
import Idealize.ShloMosaic.PureOps.Ideal.Laws

set_option maxRecDepth 16384

noncomputable section

namespace Cert.KernelIdeal.Rectify

open Cert.KernelIdeal Cert.KernelIdeal.Gen
open Idealize.ShloMosaic Idealize.ShloMosaic.TcCoe Idealize.SL.Sem
open Idealize.ShloMosaic.Pipeline (Dat)

-- the buffer contents the region is entered with
variable (V : (c : Dev nD) → (b : Ref sig .tc) → Buf (Elt Ideal) ((c : Thread nD τ).loc b))

theorem origin : (![0, 0] : Fin 2 → Nat) = fun _ => 0 := funext fun a => by fin_cases a <;> rfl

/-- The entrywise maximum with what the zero pattern denotes. -/
def relu (z : S100000x64.Idx → EReal) : S100000x64.Idx → EReal :=
  fun i => max (z i) (Ideal.ofBits .f32 0x00000000#32)

/-- What the body stores, at entry j of its block: the block's entry or zero, whichever is larger (the reshape to
    the same shape changes nothing). -/
theorem stored_apply (x0 : Vec Ideal S10000x64 .f32) (j : S10000x64.Idx) :
    k1_pay1 (F := Ideal) x0 j = max (x0 j) (Ideal.ofBits .f32 0x00000000#32) := by
  unfold k1_pay1
  rw [shapeCast_self]
  rfl

/-- The input block at a point and the input array, at their literal types. -/
abbrev zblk (c : Dev nD) (t : Fin cfg1.N) : Vec Ideal S10000x64 .f32 := iblk1 V c 0 t
abbrev zarr (c : Dev nD) : S100000x64.Idx → EReal := V c main_v7

/-- The index maps over the grid: the input block moves with the output block; the output's row block at point t
    is t and its column block 0. -/
theorem block_indices : ∀ t : Fin cfg1.N, win1_0.index t (0 : Fin 2) = win1_1.index t (0 : Fin 2)
    ∧ win1_0.index t (1 : Fin 2) = win1_1.index t (1 : Fin 2)
    ∧ win1_1.index t (1 : Fin 2) = 0
    ∧ win1_1.index t (0 : Fin 2) = t.val :=
  (by decide +kernel : ∀ t : Fin grid1.N, _)

/-- What point t writes back is block t of the entrywise maximum of the array the region finds: the input block's
    entry j is the array's entry at the output block's position of j, the two windows having one index map. -/
theorem written_block (c : Dev nD) (t : Fin cfg1.N) :
    (dat1 V c).flushed 1 t = ((cfg1.win 1).blk t).view.read (Elt Ideal) (relu (zarr V c)) := by
  show (cfg1.win 1).cut (grid1.coords t) ((dat1 V c).after 1 t) = _
  rw [after1_1]
  unfold out1_1
  rw [View.canon_unit_zero origin]
  simp only [View.ld_unit_zero (S := S10000x64) origin]
  funext j
  show k1_pay1 (F := Ideal) (zblk V c t) j = relu (zarr V c) (((cfg1.win 1).blk t).view.emb j)
  refine (stored_apply (zblk V c t) j).trans ?_
  have hx : zblk V c t j = zarr V c (((cfg1.win 1).blk t).view.emb j) := by
    show V c main_v7 (((cfg1.win 0).blk t).view.emb j) = V c main_v7 _
    congr 1
  rw [hx]
  rfl

/-- An index of the result array lies in point t's block iff each coordinate is in the block's range on its axis. -/
theorem mem_block (t : Fin cfg1.N) (i : S100000x64.Idx) :
    i ∈ ((cfg1.win 1).blk t).view.set ↔ ∀ a : Fin 2, win1_1.index t a * S10000x64.size a ≤ (i a).val ∧ (i a).val < win1_1.index t a * S10000x64.size a + S10000x64.size a := by
  show i ∈ ((View.whole main_v8).slice (win1_1.rect t)).set ↔ _
  rw [View.set_slice_whole, Rect.mem_set_unit]
  exact Iff.rfl

/-- Each of the ten row blocks is some point's. -/
theorem point_of_block : ∀ q : Fin 10, ∃ t : Fin cfg1.N, t.val = q.val :=
  (by decide +kernel : ∀ q : Fin 10, ∃ t : Fin grid1.N, t.val = q.val)

/-- Every entry of the result is written: row i₀ lies in the block of point i₀ / 10000. -/
theorem rows_covered (i : S100000x64.Idx) : ∃ t : Fin cfg1.N, (cfg1.win 1).flush t = true ∧ i ∈ ((cfg1.win 1).blk t).view.set := by
  have hi0 : (i 0).val < 100000 := (i 0).isLt
  have hi1 : (i 1).val < 64 := (i 1).isLt
  obtain ⟨t, ht⟩ := point_of_block ⟨(i 0).val / 10000, by omega⟩
  have ht' : t.val = (i 0).val / 10000 := ht
  obtain ⟨e0, e1, e2, e3⟩ := block_indices t
  refine ⟨t, flush1_1 t, ?_⟩
  rw [mem_block]
  intro a
  match a with
  | ⟨0, _⟩ => show win1_1.index t (0 : Fin 2) * 10000 ≤ (i 0).val ∧ (i 0).val < win1_1.index t (0 : Fin 2) * 10000 + 10000; omega
  | ⟨1, _⟩ => show win1_1.index t (1 : Fin 2) * 64 ≤ (i 1).val ∧ (i 1).val < win1_1.index t (1 : Fin 2) * 64 + 64; omega

/-- The result array after the region is the entrywise maximum with zero of the array the region finds. -/
theorem rectified_array (c : Dev nD) : (dat1 V c).arrAt 1 cfg1.N = relu (zarr V c) :=
  (dat1 V c).arrAt_eq_of_cover 1 (relu (zarr V c)) (fun t _ => written_block V c t) rows_covered

end Cert.KernelIdeal.Rectify

end
-- ==== Proof.WrapWord.lean ====
/- The arithmetic of jnp's negative-index wrap on signed 32-bit words. An index word `w` with
   −100000 ≤ w < 100000 is sent to `w + 100000` when it is negative and kept otherwise; the result lies in
   [0, 99999], so the two comparisons of the in-bounds test that follows the wrap both answer 1. -/
import Idealize.ShloMosaic.Lib.Affine
import Idealize.ShloMosaic.Lib.WordArith
import Idealize.ShloMosaic.Lib.ValueIdx

namespace Cert.GraphConv

open Idealize.ShloMosaic

/-- The wrapped word is at least 0 and at most 99999: for a negative `w ≥ −100000` the sum `w + 100000` does not
    overflow and lies in [0, 99999]; a non-negative `w < 100000` is kept. -/
theorem wrap_in_range (w : BitVec 32) (h1 : (-100000 : Int) ≤ w.toInt) (h2 : w.toInt < 100000) :
    IntOp.cmpi .sge (Scalar.select (IntOp.cmpi .slt w 0#32) (IntOp.addi w 100000#32) w) 0#32 = 1#1
    ∧ IntOp.cmpi .sle (Scalar.select (IntOp.cmpi .slt w 0#32) (IntOp.addi w 100000#32) w) 99999#32 = 1#1 := by
  rw [IntOp.cmpi_sge, IntOp.cmpi_sle]
  have e0 : (0#32 : BitVec 32).toInt = 0 := by decide
  have e9 : (99999#32 : BitVec 32).toInt = 99999 := by decide
  have eN : (100000#32 : BitVec 32).toInt = 100000 := by decide
  by_cases hneg : IntOp.cmpi .slt w 0#32 = 1#1
  · have hlt : w.toInt < (0#32 : BitVec 32).toInt := IntOp.cmpi_slt.1 hneg
    have hadd : (IntOp.addi w 100000#32).toInt = w.toInt + 100000 := by
      show (w + 100000#32).toInt = _
      rw [WordArith.toInt_add_of_bounds _ _ (by rw [eN]; omega) (by rw [eN]; omega), eN]
    rw [hneg, ValueIdx.select_one, hadd, e0, e9]
    omega
  · have hge : ¬ w.toInt < (0#32 : BitVec 32).toInt := fun h => hneg (IntOp.cmpi_slt.2 h)
    rw [ValueIdx.eq_zero_of_ne_one hneg, ValueIdx.select_zero, e0, e9]
    omega

/-- A left fold by `and` from 1 over words that are all 1 is 1. -/
theorem foldl_andi_const_one {ι : Type} (l : List ι) :
    l.foldl (fun r (_ : ι) => IntOp.andi r 1#1) 1#1 = 1#1 := by
  induction l with
  | nil => rfl
  | cons a l ih => simpa [List.foldl_cons, show IntOp.andi 1#1 1#1 = 1#1 from by decide] using ih

end Cert.GraphConv
-- ==== Proof.EdgeStage.lean ====
/- The host stage between the two kernel regions: per edge, gather the source node's row of the product matrix,
   scale it by the edge's weight, and add it into the destination node's row.
   The gather is jnp.take's: the source word is wrapped numpy-style (a negative word w becomes w + 100000), the
   row at the wrapped word is gathered, and an edge whose wrapped word is outside [0, 99999] gets the fill
   pattern instead of a row. Here each stretch of operations is named as one function of the buffers it reads,
   read back from the operation lists; and when every source word lies in [−100000, 100000) the in-bounds test
   is 1 on every element, so the take is the plain gather at the wrapped words. -/
import proofs.«422082_j52596169506858_2_alg».proof.Proof.Gen.KernelIdeal.Launch
import proofs.«422082_j52596169506858_2_alg».proof.Proof.WrapWord
import Idealize.ShloMosaic.Lib.StableHlo.Run
import Idealize.ShloMosaic.PureOps.Reduce

set_option maxRecDepth 16384

noncomputable section

namespace Cert.KernelIdeal.Edges

open Cert.KernelIdeal Cert.KernelIdeal.Gen
open Idealize.ShloMosaic Idealize.ShloMosaic.TcCoe Idealize.SL.Sem Idealize.ShloMosaic.StableHlo

variable {F : FTy → Type} [FloatOps F]

/-- The wrapped source words, as the column of start indices the gather takes: `w + 100000` where `w < 0`, else `w`. -/
def wrapIdx (src : IVec S1600000 32) : IVec S1600000x1 32 :=
  broadcastInDim S1600000x1 ![0] bcast_S1600000_S1600000x1_0
    (select (cmpi .slt src (broadcastInDim S1600000 ![] bcast_S_S1600000 (constantI S_ 32 0#32)))
      (addi src (broadcastInDim S1600000 ![] bcast_S_S1600000 (constantI S_ 32 100000#32))) src)

/-- The in-bounds test of a column of start indices, spread over the gathered rows: 1 at (e, q) iff
    `0 ≤ idx e ≤ 99999`. -/
def inBounds (idx : IVec S1600000x1 32) : IVec S1600000x64 1 :=
  broadcastInDim S1600000x64 ![0] bcast_S1600000_S1600000x64_0
    (Host.reduce IntOp.andi
      (andi (cmpi .sge idx (broadcastInDim S1600000x1 ![] bcast_S_S1600000x1 (constantI S_ 32 0#32)))
        (cmpi .sle idx (broadcastInDim S1600000x1 ![0, 1] bcast_S1x1_S1600000x1_0_1
          (broadcastInDim S1x1 ![1] bcast_S1_S1x1_1 (constantI S1 32 99999#32)))))
      (constantI S_ 1 1#1) reducesTo_S1600000x1_S1600000_d1 h_S_)

/-- jnp.take of the rows of `sup` at the source words: the gathered row where the wrapped word is in bounds, the
    fill pattern elsewhere. -/
def take (sup : FVec F S100000x64 .f32) (src : IVec S1600000 32) : FVec F S1600000x64 .f32 :=
  select (inBounds (wrapIdx src)) (Host.gather gather_S100000x64_S1600000x1_S1600000x64_1_0_n_n_0_1_164 sup (wrapIdx src))
    (broadcastInDim S1600000x64 ![] bcast_S_S1600000x64 (constant S_ .f32 0x7FC00000#32))

/-- The messages `g[e, q] · val[e]` added into the rows their destination words name, from zero. -/
def scatterEdges (g : FVec F S1600000x64 .f32) (val : FVec F S1600000 .f32) (dst : IVec S1600000 32) : FVec F S100000x64 .f32 :=
  Host.scatterAdd scatter_S100000x64_S1600000x1_S1600000x64_1_0_0_1
    (broadcastInDim S100000x64 ![] bcast_S_S100000x64 (constant S_ .f32 0x00000000#32))
    (broadcastInDim S1600000x1 ![0] bcast_S1600000_S1600000x1_0 dst)
    (mulf g (broadcastInDim S1600000x64 ![0, 1] bcast_S1600000x1_S1600000x64_0_1
      (broadcastInDim S1600000x1 ![0] bcast_S1600000_S1600000x1_0 val)))

/-! ## The two stretches of operations read back -/

/-- Contents carried to a buffer's own type and back are unchanged (the two transports are along one equation). -/
theorem ofBuf_toBuf {T : BufTy} (x : TRef sig T) (v : T.Contents (Elt F)) : x.ofBuf (x.toBuf v) = v := by
  obtain ⟨r, rfl, _, _⟩ := x
  rfl

set_option maxHeartbeats 2000000 in
/-- After the 23 operations of the take, its result buffer holds `take` of the product buffer and the source words. -/
theorem take_result (W : Valuation τ sig (Elt F)) :
    StableHlo.after hostOps1 W (Proc.devRef .tc main_v1)
      = take (W (Proc.devRef .tc main_v0)) (W (Proc.devRef .tc main_arg3)) := by
  have h : ∀ X : (⟨S1600000x64, .f32⟩ : BufTy).Contents (Elt F),
      take (W (Proc.devRef .tc main_v0)) (W (Proc.devRef .tc main_arg3)) = X →
      StableHlo.after hostOps1 W (Proc.devRef .tc main_v1) = X := by
    intro X hX
    have c0 : ∀ v, (TRef.of main_v0 : TRef sig ⟨S100000x64, .f32⟩).ofBuf (Val := Elt F) v = v := fun _ => rfl
    have c3 : ∀ v, (TRef.of main_arg3 : TRef sig ⟨S1600000, .i32⟩).ofBuf (Val := Elt F) v = v := fun _ => rfl
    have c1 : ∀ v, (TRef.of main_v1 : TRef sig ⟨S1600000x64, .f32⟩).toBuf (Val := Elt F) v = v := fun _ => rfl
    after_results_simp
    simp only [ofBuf_toBuf, c0, c3, c1]
    unfold take inBounds wrapIdx at hX
    exact hX
  exact h _ rfl

set_option maxHeartbeats 2000000 in
/-- The take writes neither the edge weights nor the destination words. -/
theorem take_keeps_val (W : Valuation τ sig (Elt F)) :
    StableHlo.after hostOps1 W (Proc.devRef .tc main_arg2) = W (Proc.devRef .tc main_arg2) := by
  after_results_simp

set_option maxHeartbeats 2000000 in
theorem take_keeps_dst (W : Valuation τ sig (Elt F)) :
    StableHlo.after hostOps1 W (Proc.devRef .tc main_arg4) = W (Proc.devRef .tc main_arg4) := by
  after_results_simp

set_option maxHeartbeats 2000000 in
/-- After the 7 operations that follow, the scatter's result buffer holds `scatterEdges` of the taken rows, the
    edge weights and the destination words. -/
theorem edges_result (W : Valuation τ sig (Elt F)) :
    StableHlo.after hostOps1_1 W (Proc.devRef .tc main_v7)
      = scatterEdges (W (Proc.devRef .tc main_v1)) (W (Proc.devRef .tc main_arg2)) (W (Proc.devRef .tc main_arg4)) := by
  have h : ∀ X : (⟨S100000x64, .f32⟩ : BufTy).Contents (Elt F),
      scatterEdges (W (Proc.devRef .tc main_v1)) (W (Proc.devRef .tc main_arg2)) (W (Proc.devRef .tc main_arg4)) = X →
      StableHlo.after hostOps1_1 W (Proc.devRef .tc main_v7) = X := by
    intro X hX
    after_results
    unfold scatterEdges at hX
    exact hX
  exact h _ rfl

/-! ## In range, the take is the gather -/

/-- An `and`-reduction of an operand that is 1 everywhere, from 1, is 1 everywhere. -/
theorem reduce_andi_ones {s t u : Shape} {axes : List (Fin s.rank)} (init : u.Idx → BitVec 1) (h : s.ReducesTo axes t)
    (hu : 0 < u.numel) (hinit : init (Shape.Idx.first hu) = 1#1) :
    Host.reduce IntOp.andi (fun _ : s.Idx => (1#1 : BitVec 1)) init h hu = fun _ => 1#1 := by
  funext j
  rw [Host.reduce_eq_foldl, hinit]
  exact Cert.GraphConv.foldl_andi_const_one _

/-- With every source word in [−100000, 100000), every wrapped word is in [0, 99999]: the in-bounds test answers
    1 at every element. -/
theorem inBounds_wrapIdx (src : IVec S1600000 32)
    (hsrc : ∀ e : S1600000.Idx, (-100000 : Int) ≤ (src e).toInt ∧ (src e).toInt < 100000) :
    inBounds (wrapIdx src) = fun _ => 1#1 := by
  have hcmp : andi (cmpi .sge (wrapIdx src) (broadcastInDim S1600000x1 ![] bcast_S_S1600000x1 (constantI S_ 32 0#32)))
        (cmpi .sle (wrapIdx src) (broadcastInDim S1600000x1 ![0, 1] bcast_S1x1_S1600000x1_0_1
          (broadcastInDim S1x1 ![1] bcast_S1_S1x1_1 (constantI S1 32 99999#32)))) = fun _ => 1#1 := by
    funext i
    show IntOp.andi (IntOp.cmpi .sge (wrapIdx src i) _) (IntOp.cmpi .sle (wrapIdx src i) _) = 1#1
    exact IntOp.andi_eq_one.2 ⟨(Cert.GraphConv.wrap_in_range _ (hsrc _).1 (hsrc _).2).1,
      (Cert.GraphConv.wrap_in_range _ (hsrc _).1 (hsrc _).2).2⟩
  unfold inBounds
  rw [hcmp, reduce_andi_ones _ _ _ rfl]
  rfl

/-- So the take is the gather of the rows at the wrapped words. -/
theorem take_eq_gather (sup : FVec F S100000x64 .f32) (src : IVec S1600000 32)
    (hsrc : ∀ e : S1600000.Idx, (-100000 : Int) ≤ (src e).toInt ∧ (src e).toInt < 100000) :
    take sup src = Host.gather gather_S100000x64_S1600000x1_S1600000x64_1_0_n_n_0_1_164 sup (wrapIdx src) := by
  unfold take
  rw [inBounds_wrapIdx src hsrc]
  funext i
  exact ValueIdx.select_one _ _

end Cert.KernelIdeal.Edges

end
-- ==== Proof.KernelValue.lean ====
/- The kernel program's result as one function of its five arguments, over the extended reals.
   Reading the run backwards: the result buffer is the second region's output array, the entrywise maximum with
   zero of the buffer the scatter wrote; that buffer is the edge messages added by destination, the messages being
   the taken rows of the first region's output scaled by the edge weights; and the first region's output is the
   product matrix x·w. No host operation and no region writes an argument, so each stage reads the arguments as
   launched. -/
import proofs.«422082_j52596169506858_2_alg».proof.Proof.KernelRun
import proofs.«422082_j52596169506858_2_alg».proof.Proof.ProductBlocks
import proofs.«422082_j52596169506858_2_alg».proof.Proof.RectifyBlocks
import proofs.«422082_j52596169506858_2_alg».proof.Proof.EdgeStage

set_option maxRecDepth 16384

noncomputable section

namespace Cert.KernelIdeal.Result

open Cert.KernelIdeal Cert.KernelIdeal.Gen
open Idealize.ShloMosaic Idealize.ShloMosaic.TcCoe Idealize.SL.Sem

variable (m : (ℓ : Loc nD τ sig) → Buf (Elt Ideal) ℓ) (ρ : Dev nD → PrngReg)

/-- relu(Σ over the edges into a node of val[e] · take(x·w, src)[e, ·]): the program's result. -/
def forward (x : S100000x128.Idx → EReal) (w : S128x64.Idx → EReal) (val : S1600000.Idx → EReal)
    (src dst : IVec S1600000 32) : S100000x64.Idx → EReal :=
  Rectify.relu (Edges.scatterEdges (F := Ideal) (Edges.take (F := Ideal) (Product.prod x w) src) val dst)

/-- The result buffer's final contents are `forward` of the arguments as launched. -/
theorem result_contents (c : Dev nD) :
    W4 m ρ c (Proc.devRef .tc main_v8)
      = forward (m ((c : Thread nD τ).loc main_arg0)) (m ((c : Thread nD τ).loc main_arg1))
          (m ((c : Thread nD τ).loc main_arg2)) (m ((c : Thread nD τ).loc main_arg3)) (m ((c : Thread nD τ).loc main_arg4)) := by
  have h1 : W4 m ρ c (Proc.devRef .tc main_v8) = Rectify.relu (Rectify.zarr (V3 m ρ) c) :=
    (W4_arr m ρ c 1).trans (Rectify.rectified_array (V3 m ρ) c)
  have h2 : Rectify.zarr (V3 m ρ) c
      = Edges.scatterEdges (F := Ideal) (W2 m ρ c (Proc.devRef .tc main_v1)) (W2 m ρ c (Proc.devRef .tc main_arg2)) (W2 m ρ c (Proc.devRef .tc main_arg4)) :=
    Edges.edges_result (F := Ideal) (W2 m ρ c)
  have h3 : W2 m ρ c (Proc.devRef .tc main_v1)
      = Edges.take (F := Ideal) (W1 m ρ c (Proc.devRef .tc main_v0)) (W1 m ρ c (Proc.devRef .tc main_arg3)) :=
    Edges.take_result (F := Ideal) (W1 m ρ c)
  have h4 : W2 m ρ c (Proc.devRef .tc main_arg2) = m ((c : Thread nD τ).loc main_arg2) :=
    (Edges.take_keeps_val (F := Ideal) (W1 m ρ c)).trans (W1_of_ne m ρ c main_arg2 (by decide))
  have h5 : W2 m ρ c (Proc.devRef .tc main_arg4) = m ((c : Thread nD τ).loc main_arg4) :=
    (Edges.take_keeps_dst (F := Ideal) (W1 m ρ c)).trans (W1_of_ne m ρ c main_arg4 (by decide))
  have h6 : W1 m ρ c (Proc.devRef .tc main_arg3) = m ((c : Thread nD τ).loc main_arg3) :=
    W1_of_ne m ρ c main_arg3 (by decide)
  have h7 : W1 m ρ c (Proc.devRef .tc main_v0)
      = Product.prod (m ((c : Thread nD τ).loc main_arg0)) (m ((c : Thread nD τ).loc main_arg1)) :=
    (W1_arr m ρ c 2).trans (Product.product_array (V0 m ρ) c)
  rw [h1, h2, h3, h4, h5, h6, h7]
  rfl

/-- The program's run with its result read: the result buffer ends at `forward` of the arguments, and the
    arguments end unchanged. -/
theorem run : θ_run defs (onTc (τ := τ) (main (F := Ideal))) ⟨m, fun _ => 0, ρ⟩ (fun r => ∀ c : Dev nD,
      r.2.mem ((c.tc : Thread nD τ).loc main_v8)
        = forward (m ((c : Thread nD τ).loc main_arg0)) (m ((c : Thread nD τ).loc main_arg1))
            (m ((c : Thread nD τ).loc main_arg2)) (m ((c : Thread nD τ).loc main_arg3)) (m ((c : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c => ⟨(h c).1.trans (result_contents m ρ c), (h c).2⟩) (run_main m ρ)

end Cert.KernelIdeal.Result

end
-- ==== Proof.Agreement.lean ====
/- The two programs compute one function of the arguments, when every source word lies in [−100000, 100000).
   The reference multiplies x·w on the host, wraps the source words numpy-style, gathers the rows at the wrapped
   words, scales them by the edge weights, adds them by destination and takes the maximum with zero. The kernel
   program differs in three places, none of which changes a value here: its product matrix is assembled from row
   blocks, entry by entry the same sums Σ_k x[i, k] · w[k, q]; its gather is jnp.take's, which replaces a row by the
   fill pattern where the wrapped word is out of bounds — nowhere, in range —; and its maximum with zero is taken
   block by block. The wrap, the gather, the scaling and the scatter-add are the same operations on both sides. -/
import proofs.«422082_j52596169506858_2_alg».proof.Proof.KernelValue
import proofs.«422082_j52596169506858_2_alg».proof.Proof.Gen.ReferenceIdeal.Read

set_option maxRecDepth 16384

noncomputable section

namespace Cert.ReferenceIdeal.Agreement

open Cert.ReferenceIdeal Cert.ReferenceIdeal.Gen
open Idealize.ShloMosaic

/-- The reference's result as its run states it: the composed term of its twenty host operations. -/
def refResult (x : FVec Ideal S100000x128 .f32) (w : FVec Ideal S128x64 .f32) (val : FVec Ideal S1600000 .f32)
    (src dst : IVec S1600000 32) : FVec Ideal S100000x64 .f32 :=
  maximumf (Host.scatterAdd scatter_S100000x64_S1600000x1_S1600000x64_1_0_0_1 (broadcastInDim S100000x64 ![] bcast_S_S100000x64 (constant S_ .f32 0x00000000#32)) (broadcastInDim S1600000x1 ![0] bcast_S1600000_S1600000x1_0 dst) (mulf (Host.gather gather_S100000x64_S1600000x1_S1600000x64_1_0_n_n_0_1_164 (Host.dotGeneral dot_S100000x128_S128x64_S100000x64_1_0_0_1_n_n none x w) (broadcastInDim S1600000x1 ![0] bcast_S1600000_S1600000x1_0 (select (cmpi .slt src (broadcastInDim S1600000 ![] bcast_S_S1600000 (constantI S_ 32 0#32))) (addi src (broadcastInDim S1600000 ![] bcast_S_S1600000 (constantI S_ 32 100000#32))) src))) (broadcastInDim S1600000x64 ![0, 1] bcast_S1600000x1_S1600000x64_0_1 (broadcastInDim S1600000x1 ![0] bcast_S1600000_S1600000x1_0 val)))) (broadcastInDim S100000x64 ![] bcast_S_S100000x64 (constant S_ .f32 0x00000000#32))

/-- The product matrix assembled from the kernel's row blocks is the host's product: entry by entry both are
    Σ_k x[i, k] · w[k, q]. -/
theorem prod_eq_dotGeneral (x : FVec Ideal S100000x128 .f32) (w : FVec Ideal S128x64 .f32) :
    Cert.KernelIdeal.Product.prod x w = Host.dotGeneral dot_S100000x128_S128x64_S100000x64_1_0_0_1_n_n none x w := by
  funext i
  refine Eq.trans ?_ (Read.val_main_v0_apply x w i).symm
  refine Finset.sum_congr rfl fun k _ => ?_
  have e1 : Cert.KernelIdeal.Product.xrow i k = Read.lidx_main_v0 i k :=
    funext fun a => match a with | ⟨0, _⟩ => rfl | ⟨1, _⟩ => rfl
  have e2 : Cert.KernelIdeal.Product.wcol i k = Read.ridx_main_v0 i k :=
    funext fun a => match a with | ⟨0, _⟩ => rfl | ⟨1, _⟩ => rfl
  show x (Cert.KernelIdeal.Product.xrow i k) * w (Cert.KernelIdeal.Product.wcol i k) = x (Read.lidx_main_v0 i k) * w (Read.ridx_main_v0 i k)
  rw [e1, e2]

/-- In range, the kernel program's function of the arguments is the reference's. -/
theorem forward_eq (x : FVec Ideal S100000x128 .f32) (w : FVec Ideal S128x64 .f32) (val : FVec Ideal S1600000 .f32)
    (src dst : IVec S1600000 32)
    (hsrc : ∀ e : S1600000.Idx, (-100000 : Int) ≤ (src e).toInt ∧ (src e).toInt < 100000) :
    Cert.KernelIdeal.Result.forward x w val src dst = refResult x w val src dst := by
  unfold Cert.KernelIdeal.Result.forward
  rw [Cert.KernelIdeal.Edges.take_eq_gather _ _ hsrc, prod_eq_dotGeneral]
  rfl

end Cert.ReferenceIdeal.Agreement

end
-- ==== Proof.lean ====
/- The graph-convolution layer relu(A · (x·w)), with the adjacency given as 1600000 weighted edges: a Pallas program
   (the product x·w on the matrix unit in ten row blocks, jnp.take of the source rows, scaling and segment_sum on
   the host, the maximum with zero in ten row blocks) against its jnp reference, over the extended reals, for
   finite float inputs and source indices in [−100000, 100000) — the range in which the reference's numpy-style
   indexing of the 100000-row product is defined.
   Both kernel programs run by their frame certificates, the reference by its run read back. Nothing was rewritten
   by the idealization. For the value: the kernel program's result is one function of its arguments
   (Proof/KernelValue.lean), the reference's its run's term, and in range the two are one function
   (Proof/Agreement.lean); the range comes from the precondition (Proof/SourceRange.lean). -/
import proofs.«422082_j52596169506858_2_alg».proof.Defs
import proofs.«422082_j52596169506858_2_alg».proof.Proof.Gen.Kernel
import proofs.«422082_j52596169506858_2_alg».proof.Proof.Gen.Kernel.Skeleton
import proofs.«422082_j52596169506858_2_alg».proof.Proof.Gen.Kernel.Launch
import proofs.«422082_j52596169506858_2_alg».proof.Proof.Gen.Kernel.Points
import proofs.«422082_j52596169506858_2_alg».proof.Proof.Gen.Kernel.Frame
import proofs.«422082_j52596169506858_2_alg».proof.Proof.Gen.KernelIdeal
import proofs.«422082_j52596169506858_2_alg».proof.Proof.Gen.KernelIdeal.Skeleton
import proofs.«422082_j52596169506858_2_alg».proof.Proof.Gen.KernelIdeal.Launch
import proofs.«422082_j52596169506858_2_alg».proof.Proof.Gen.KernelIdeal.Points
import proofs.«422082_j52596169506858_2_alg».proof.Proof.Gen.KernelIdeal.Frame
import proofs.«422082_j52596169506858_2_alg».proof.Proof.Gen.ReferenceIdeal
import proofs.«422082_j52596169506858_2_alg».proof.Proof.Gen.Pre_finite_inputs
import proofs.«422082_j52596169506858_2_alg».proof.Proof.Gen.ReferenceIdeal.Run
import proofs.«422082_j52596169506858_2_alg».proof.Proof.Gen.ReferenceIdeal.Read
import proofs.«422082_j52596169506858_2_alg».proof.Proof.SourceRange
import proofs.«422082_j52596169506858_2_alg».proof.Proof.KernelValue
import proofs.«422082_j52596169506858_2_alg».proof.Proof.Agreement
import Idealize.ShloMosaic.Adequacy
import Idealize.ShloMosaic.Init

noncomputable section

namespace Cert.Proof

open Idealize.ShloMosaic Idealize.SL.Sem

/-- The word-level kernel program runs and leaves its arguments unchanged. -/
theorem frame_kernel : Cert.frame_Kernel := fun m ρ _ => Cert.Kernel.Gen.frame m ρ

/-- So does its reading over the extended reals. -/
theorem frame_kernelIdeal : Cert.frame_KernelIdeal := fun m ρ _ => Cert.KernelIdeal.Gen.frame m ρ

/-- The reference runs and leaves its arguments unchanged: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories that agree on the arguments both programs end with the same result: the kernel program's at its
    function of the arguments, the reference's at its run's term of the same arguments, and under the
    precondition's range of the source words these are equal. -/
theorem algebraic : Cert.algebraic_KernelIdeal_ReferenceIdeal := by
  intro m ρ m' ρ' hpre hagree
  refine ⟨fun c => Cert.KernelIdeal.Result.forward
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4)),
    Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4⟩ := hagree c
  rw [a0, a1, a2, a3, a4]
  exact (Cert.ReferenceIdeal.Agreement.forward_eq _ _ _ _ _
    (fun e => Cert.GraphConv.src_in_range _ _ _ _ _ (hpre c) e)).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
